-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S1x1 : Shape := ⟨2, ![1, 1]⟩
abbrev S4096x128 : Shape := ⟨2, ![4096, 128]⟩
abbrev S1x128 : Shape := ⟨2, ![1, 128]⟩
abbrev S128 : Shape := ⟨1, ![128]⟩
abbrev S1 : Shape := ⟨1, ![1]⟩
abbrev S_ : Shape := ⟨0, ![]⟩

abbrev nBuf : Space → Nat
  | .hbm => 3
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S1x1, .f32⟩
  | .hbm, ⟨2, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S1x1, .f32⟩
  | .local _ .vmem, ⟨3, _⟩ => ⟨S1x128, .f32⟩
  | .local _ .vmem, ⟨4, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  reduces_S4096x128_S128 : S4096x128.Reduces [0] S128
  shapeCasts_S128_S1x128 : S128.ShapeCasts S1x128
  reduces_S1x128_S1 : S1x128.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩
abbrev S128x16384 : Shape := ⟨2, ![128, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S_, .f32⟩
  | .hbm, ⟨3, _⟩ => ⟨S16384, .f32⟩
  | .hbm, ⟨4, _⟩ => ⟨S128x16384, .f32⟩
  | .hbm, ⟨5, _⟩ => ⟨S16384x16384, .f32⟩
  | .hbm, ⟨6, _⟩ => ⟨S16384x1, .f32⟩
  | .hbm, ⟨7, _⟩ => ⟨S1x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  transposes_S16384x128_S128x16384_1_0 : S16384x128.Transposes [1, 0] S128x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  dot_S16384x128_S128x16384_S16384x16384_1_0_0_1_n_n_wf : DotDims.WF S16384x128 S128x16384 S16384x16384 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.PairAlgebra.lean ====
/-
  The mathematics of the certificate, with no program in sight.

  For N = 16384 points c_i in R^D, D = 128, the mean over unordered pairs of |c_i - c_j|² / D is computed two ways:

    by pairs      (1/2) Σ_{i,j} ( |c_i|² + |c_j|² - 2 c_i·c_j ) / (count · D)
    by columns    ( N Σ_d Σ_i c_id² - Σ_d (Σ_i c_id)² ) / count / D,     count = N (N - 1) / 2 = 134209536,

  the column sums taken over four consecutive blocks of 4096 rows, one after the other. They agree because
  Σ_{i,j} c_i·c_j = Σ_d (Σ_i c_id)², and Σ_{i,j} |c_i|² = N Σ_i |c_i|². The law distributes a product over a sum
  and cancels, so it is a law of the reals: both forms are stated on extended reals that are real numbers, and
  each is shown to be the coercion of one real number, `meanPairSq`.
-/
import Idealize.ShloMosaic.PureOps.Ideal
import Idealize.ShloMosaic.PureOps.Ideal.Laws

noncomputable section

open scoped BigOperators

namespace Cert.PairAlgebra

open Idealize.ShloMosaic

/-! ## The literals -/

theorem lit_n : Ideal.ofBits .f32 0x46800000#32 = ((16384 : ℝ) : EReal) := by
  simp [Ideal.ofBits, Ideal.ieee, -EReal.coe_mul]; norm_num

theorem lit_count : Ideal.ofBits .f32 0x4CFFFC00#32 = ((134209536 : ℝ) : EReal) := by
  simp [Ideal.ofBits, Ideal.ieee, -EReal.coe_mul]; norm_num

theorem lit_d : Ideal.ofBits .f32 0x43000000#32 = ((128 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

/-! ## Sums of reals inside the extended reals -/

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-! ## Rows in four blocks -/

/-- Row `r` of block `t`: the rows are cut into four consecutive blocks of 4096. -/
def row (t : Fin 4) (r : Fin 4096) : Fin 16384 := ⟨4096 * t.val + r.val, by omega⟩

/-- A sum over all rows is the sum over the blocks of the sums over each block's rows. -/
theorem sum_rows {M : Type*} [AddCommMonoid M] (f : Fin 16384 → M) :
    ∑ i, f i = ∑ t : Fin 4, ∑ r : Fin 4096, f (row t r) := by
  rw [← Equiv.sum_comp (finProdFinEquiv : Fin 4 × Fin 4096 ≃ Fin (4 * 4096)) f, Fintype.sum_prod_type]
  refine Finset.sum_congr rfl fun t _ => Finset.sum_congr rfl fun r _ => congrArg f (Fin.ext ?_)
  show r.val + 4096 * t.val = 4096 * t.val + r.val
  omega

/-! ## The identity, over the reals -/

/-- Summed over all ordered pairs, |c_i|² + |c_j|² - 2 c_i·c_j is 2 (N Σ_d Σ_i c_id² - Σ_d (Σ_i c_id)²). -/
theorem pairs_collapse {ι κ : Type*} [Fintype ι] [Fintype κ] (a : ι → κ → ℝ) :
    ∑ i, ∑ j, ((∑ k, a i k * a i k) + (∑ k, a j k * a j k) - 2 * ∑ k, a i k * a j k)
      = 2 * ((Fintype.card ι : ℝ) * (∑ d, ∑ i, a i d * a i d) - ∑ d, (∑ i, a i d) * (∑ i, a i d)) := by
  have h1 : ∑ _i : ι, ∑ j : ι, (∑ k, a j k * a j k) = (Fintype.card ι : ℝ) * ∑ d, ∑ i, a i d * a i d := by
    simp only [Finset.sum_const, Finset.card_univ, nsmul_eq_mul]
    rw [Finset.sum_comm]
  have h2 : ∑ i : ι, ∑ _j : ι, (∑ k, a i k * a i k) = (Fintype.card ι : ℝ) * ∑ d, ∑ i, a i d * a i d := by
    simp only [Finset.sum_const, Finset.card_univ, nsmul_eq_mul]
    rw [← Finset.mul_sum, Finset.sum_comm]
  have h3 : ∑ i, ∑ j, ∑ k, a i k * a j k = ∑ d, (∑ i, a i d) * (∑ i, a i d) := by
    calc ∑ i, ∑ j, ∑ k, a i k * a j k
        = ∑ i, ∑ k, ∑ j, a i k * a j k := Finset.sum_congr rfl fun i _ => Finset.sum_comm
      _ = ∑ k, ∑ i, ∑ j, a i k * a j k := Finset.sum_comm
      _ = ∑ d, (∑ i, a i d) * (∑ i, a i d) := Finset.sum_congr rfl fun k _ => by rw [Finset.sum_mul_sum]
  simp only [Finset.sum_sub_distrib, Finset.sum_add_distrib, ← Finset.mul_sum]
  rw [h1, h2, h3]
  ring

/-- The mean over unordered pairs of |c_i - c_j|² / D, in its column form: one real number. -/
def meanPairSq (a : Fin 16384 → Fin 128 → ℝ) : ℝ :=
  (16384 * (∑ d, ∑ i, a i d * a i d) - ∑ d, (∑ i, a i d) * (∑ i, a i d)) / 134209536 / 128

/-! ## The column form on extended reals -/

/-- A sum over all rows accumulated block after block from zero: ((((0 + B₀) + B₁) + B₂) + B₃). -/
def acc4 (f : Fin 16384 → EReal) : EReal :=
  (((0 + ∑ r : Fin 4096, f (row 0 r)) + ∑ r : Fin 4096, f (row 1 r)) + ∑ r : Fin 4096, f (row 2 r))
    + ∑ r : Fin 4096, f (row 3 r)

theorem acc4_coe (f : Fin 16384 → ℝ) : acc4 (fun i => ((f i : ℝ) : EReal)) = ((∑ i, f i : ℝ) : EReal) := by
  unfold acc4
  simp only [coe_sum, zero_add, ← EReal.coe_add]
  rw [sum_rows f, Fin.sum_univ_four]

/-- The column form: N times the sum of the columns' sums of squares, less the sum of the squared column sums,
    divided by the count and then by D. -/
def colForm (x : Fin 16384 → Fin 128 → EReal) : EReal :=
  Ideal.div (Ideal.div
    (((16384 : ℝ) : EReal) * (∑ d : Fin 128, acc4 (fun i => x i d * x i d))
      - ∑ d : Fin 128, acc4 (fun i => x i d) * acc4 (fun i => x i d))
    ((134209536 : ℝ) : EReal)) ((128 : ℝ) : EReal)

theorem colForm_coe (a : Fin 16384 → Fin 128 → ℝ) :
    colForm (fun i d => ((a i d : ℝ) : EReal)) = ((meanPairSq a : ℝ) : EReal) := by
  unfold colForm
  simp only [← EReal.coe_mul, acc4_coe, coe_sum, ← EReal.coe_sub,
    Ideal.div_coe (by norm_num : (134209536 : ℝ) ≠ 0), Ideal.div_coe (by norm_num : (128 : ℝ) ≠ 0)]
  refine congrArg _ ?_
  unfold meanPairSq
  ring

/-! ## The pair form on extended reals -/

/-- The pair form: half the sum over ordered pairs of |c_i|² + |c_j|² - 2 c_i·c_j, each sum begun at zero,
    divided by count · D. -/
def pairForm (x : Fin 16384 → Fin 128 → EReal) : EReal :=
  Ideal.div (((1 / 2 : ℝ) : EReal) * (0 + ∑ i : Fin 16384, ∑ j : Fin 16384,
      (((0 + ∑ k : Fin 128, x i k * x i k) + (0 + ∑ k : Fin 128, x j k * x j k))
        - ((2 : ℝ) : EReal) * ∑ k : Fin 128, x i k * x j k)))
    (((134209536 : ℝ) : EReal) * ((128 : ℝ) : EReal))

theorem pairForm_coe (a : Fin 16384 → Fin 128 → ℝ) :
    pairForm (fun i d => ((a i d : ℝ) : EReal)) = ((meanPairSq a : ℝ) : EReal) := by
  unfold pairForm
  simp only [← EReal.coe_mul, coe_sum, zero_add, ← EReal.coe_add, ← EReal.coe_sub,
    Ideal.div_coe (by norm_num : (134209536 * 128 : ℝ) ≠ 0)]
  refine congrArg _ ?_
  unfold meanPairSq
  rw [pairs_collapse, Fintype.card_fin]
  push_cast
  ring

end Cert.PairAlgebra

end
-- ==== Proof.RefRead.lean ====
/-
  The reference's result read as extended reals: half the sum over all ordered pairs (i, j) of
  |c_i|² + |c_j|² - 2 (c_i · c_j), each sum begun at zero, divided by count · D — the pair form.

  Each operation is read at an index from its operands at an index; the broadcasts of the row norms along
  rows and along columns read row i and row j, the product with the transpose reads c_i · c_j.
-/
import proofs.«103508_j17497696764047_1_alg».proof.Proof.Gen.ReferenceIdeal.Read
import proofs.«103508_j17497696764047_1_alg».proof.Proof.PairAlgebra

noncomputable section

open scoped BigOperators

namespace Cert.ReferenceIdeal.PairSum

open Cert.ReferenceIdeal Cert.ReferenceIdeal.Read Idealize.ShloMosaic Idealize.ShloMosaic.ValueIdx Cert.PairAlgebra

/-- Row i's norm, broadcast along the rows of the pair matrix, is read at row i. -/
theorem norm_row (a b : Fin 16384) (k : Fin 128) :
    idx_main_v1 (idx_main_v4 (idx_main_v6 (ix2 a b))) k = ix2 a k :=
  funext fun c => Fin.ext (by match c with | ⟨0, _⟩ => rfl | ⟨1, _⟩ => rfl)

/-- Column j's norm, broadcast along the columns of the pair matrix, is read at row j. -/
theorem norm_col (a b : Fin 16384) (k : Fin 128) :
    idx_main_v1 (idx_main_v5 (idx_main_v7 (ix2 a b))) k = ix2 b k :=
  funext fun c => Fin.ext (by match c with | ⟨0, _⟩ => rfl | ⟨1, _⟩ => rfl)

/-- The product's left factor at (i, j), contraction index k, is c_ik. -/
theorem gram_left (a b : Fin 16384) (k : Fin 128) : lidx_main_v3 (ix2 a b) k = ix2 a k :=
  funext fun c => Fin.ext (by match c with | ⟨0, _⟩ => rfl | ⟨1, _⟩ => rfl)

/-- Its right factor, read through the transpose, is c_jk. -/
theorem gram_right (a b : Fin 16384) (k : Fin 128) : idx_main_v2 (ridx_main_v3 (ix2 a b) k) = ix2 b k :=
  funext fun c => Fin.ext (by match c with | ⟨0, _⟩ => rfl | ⟨1, _⟩ => rfl)

/-- The reference's result is the pair form of the argument's entries. -/
theorem result_eq (x : (⟨S16384x128, .f32⟩ : BufTy).Contents (Elt Ideal)) (i : S_.Idx) :
    val_main_v15 (F := Ideal) x i = pairForm (fun a d => x (ix2 a d)) := by
  unfold pairForm
  rw [val_main_v15_apply, val_main_v13_apply, val_main_v12_apply, val_main_v14_apply, sum_idx2]
  simp only [val_main_v11_apply, val_main_v8_apply, val_main_v10_apply, val_main_v6_apply, val_main_v7_apply,
    val_main_v4_apply, val_main_v5_apply, val_main_v1_apply, val_main_v0_apply, val_main_v9_apply,
    val_main_v3_apply, val_main_v2_apply, val_main_cst_apply, val_main_cst_0_apply, val_main_cst_1_apply,
    val_main_cst_2_apply, val_main_cst_3_apply, val_main_cst_4_apply,
    norm_row, norm_col, gram_left, gram_right,
    Ideal.mulf_def, Ideal.addf_def, Ideal.subf_def, Ideal.hostDivf_def, Ideal.ofBits_def,
    Ideal.ofBits_zero_f32, lit_two, lit_half, lit_count, lit_d]

end Cert.ReferenceIdeal.PairSum

end
-- ==== Proof.KernelPieces.lean ====
/-
  What one run of the kernel body leaves behind, as values.

  The body keeps two running rows of 128 column sums between grid points: the column sums of the block and of its
  squares are added to them at every point. At the first point both rows are first set to zero, so they leave as
  0 + (the block's sums); at the later points they leave as (what the point before left) + (the block's sums). At
  the last point the body also reads both rows back, after updating them, and stores the one output entry computed
  from them.
-/
import proofs.«103508_j17497696764047_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.ColSums

open Cert.KernelIdeal Cert.KernelIdeal.Gen

variable {F : FTy → Type} [FloatOps F]

theorem hz : (![0, 0] : Fin 2 → Nat) = fun _ => 0 := funext fun a => by fin_cases a <;> rfl

/-! ## The first point: both rows set to zero, then updated -/

/-- The row of column sums after the first point: the block's column sums added to the zero row. -/
theorem first_sums (c : Dev nD) (i : grid0.Coords) (a1 : Memref sig .tc .vmem S4096x128 .f32) (h1 : a1.IsWhole)
    (a2 : Memref sig .tc .vmem S1x1 .f32) (h2 : a2.IsWhole) (a3 : Memref sig .tc .vmem S1x128 .f32) (h3 : a3.IsWhole)
    (a4 : Memref sig .tc .vmem S1x128 .f32) (h4 : a4.IsWhole) (hc0 : cond0_0 i) (hc1 : ¬cond0_1 i) (x : Vec F S4096x128 .f32) :
    sout0_A_0 c i a1 h1 a2 h2 a3 h3 a4 h4 hc0 hc1 x = k0_pay3 x k0_pay1 := by
  unfold sout0_A_0
  rw [View.read_writes_eq_canon _ _ _ (scover0_A_0 c i a1 h1 a2 h2 a3 h3 a4 h4 hc0 hc1 x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S4096x128) hz]

/-- The row of column sums of squares after the first point. -/
theorem first_sqsums (c : Dev nD) (i : grid0.Coords) (a1 : Memref sig .tc .vmem S4096x128 .f32) (h1 : a1.IsWhole)
    (a2 : Memref sig .tc .vmem S1x1 .f32) (h2 : a2.IsWhole) (a3 : Memref sig .tc .vmem S1x128 .f32) (h3 : a3.IsWhole)
    (a4 : Memref sig .tc .vmem S1x128 .f32) (h4 : a4.IsWhole) (hc0 : cond0_0 i) (hc1 : ¬cond0_1 i) (x : Vec F S4096x128 .f32) :
    sout0_A_1 c i a1 h1 a2 h2 a3 h3 a4 h4 hc0 hc1 x = k0_pay4 x k0_pay2 := by
  unfold sout0_A_1
  rw [View.read_writes_eq_canon _ _ _ (scover0_A_1 c i a1 h1 a2 h2 a3 h3 a4 h4 hc0 hc1 x)]
  unfold kernelRun0_A
  dsimp only
  sl_unfold_words
  rw [View.canon_cons_unit_zero (S := S1x128) hz, View.readCov_unit_zero (S := S1x128) _ hz]
  simp only [View.readAt_eq_ld, h1.read_unread, View.ld_unit_zero (S := S4096x128) hz]

/-! ## A middle point: both rows updated -/

theorem next_sums (c : Dev nD) (i : grid0.Coords) (a1 : Memref sig .tc .vmem S4096x128 .f32) (h1 : a1.IsWhole)
    (a2 : Memref sig .tc .vmem S1x1 .f32) (h2 : a2.IsWhole) (a3 : Memref sig .tc .vmem S1x128 .f32) (h3 : a3.IsWhole)
    (a4 : Memref sig .tc .vmem S1x128 .f32) (h4 : a4.IsWhole) (hc0 : ¬cond0_0 i) (hc1 : ¬cond0_1 i) (x : Vec F S4096x128 .f32)
    (xs0 xs1 : Vec F S1x128 .f32) :
    sout0_B_0 c i a1 h1 a2 h2 a3 h3 a4 h4 hc0 hc1 x xs0 xs1 = k0_pay3 x xs0 := by
  unfold sout0_B_0
  rw [View.read_writes_eq_canon _ _ _ (scover0_B_0 c i a1 h1 a2 h2 a3 h3 a4 h4 hc0 hc1 x xs0 xs1)]
  unfold kernelRun0_B
  dsimp only
  sl_unfold_words
  rw [View.canon_unit_zero hz]
  simp only [View.readAt_eq_ld, h1.read_unread, h3.read_unread, h4.read_unread,
    View.ld_unit_zero (S := S4096x128) hz, View.ld_unit_zero (S := S1x128) hz]

theorem next_sqsums (c : Dev nD) (i : grid0.Coords) (a1 : Memref sig .tc .vmem S4096x128 .f32) (h1 : a1.IsWhole)
    (a2 : Memref sig .tc .vmem S1x1 .f32) (h2 : a2.IsWhole) (a3 : Memref sig .tc .vmem S1x128 .f32) (h3 : a3.IsWhole)
    (a4 : Memref sig .tc .vmem S1x128 .f32) (h4 : a4.IsWhole) (hc0 : ¬cond0_0 i) (hc1 : ¬cond0_1 i) (x : Vec F S4096x128 .f32)
    (xs0 xs1 : Vec F S1x128 .f32) :
    sout0_B_1 c i a1 h1 a2 h2 a3 h3 a4 h4 hc0 hc1 x xs0 xs1 = k0_pay4 x xs1 := by
  unfold sout0_B_1
  rw [View.read_writes_eq_canon _ _ _ (scover0_B_1 c i a1 h1 a2 h2 a3 h3 a4 h4 hc0 hc1 x xs0 xs1)]
  unfold kernelRun0_B
  dsimp only
  sl_unfold_words
  rw [View.canon_unit_zero hz]
  simp only [View.readAt_eq_ld, h1.read_unread, h3.read_unread, h4.read_unread,
    View.ld_unit_zero (S := S4096x128) hz, View.ld_unit_zero (S := S1x128) hz]

/-! ## The last point: both rows updated, read back, and the output entry stored -/

theorem last_sums (c : Dev nD) (i : grid0.Coords) (a1 : Memref sig .tc .vmem S4096x128 .f32) (h1 : a1.IsWhole)
    (a2 : Memref sig .tc .vmem S1x1 .f32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i) (x : Vec F S4096x128 .f32)
    (xs0 xs1 : Vec F S1x128 .f32) :
    sout0_C_0 c i a1 h1 a2 h2 a3 h3 a4 h4 hc0 hc1 x xs0 xs1 = k0_pay3 x xs0 := by
  unfold sout0_C_0
  rw [View.read_writes_eq_canon _ _ _ (scover0_C_0 c i a1 h1 a2 h2 a3 h3 a4 h4 hc0 hc1 x xs0 xs1)]
  unfold kernelRun0_C
  dsimp only
  sl_unfold_words
  rw [View.canon_unit_zero hz]
  simp only [View.readAt_eq_ld, h1.read_unread, h3.read_unread, h4.read_unread,
    View.ld_unit_zero (S := S4096x128) hz, View.ld_unit_zero (S := S1x128) hz]

theorem last_sqsums (c : Dev nD) (i : grid0.Coords) (a1 : Memref sig .tc .vmem S4096x128 .f32) (h1 : a1.IsWhole)
    (a2 : Memref sig .tc .vmem S1x1 .f32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i) (x : Vec F S4096x128 .f32)
    (xs0 xs1 : Vec F S1x128 .f32) :
    sout0_C_1 c i a1 h1 a2 h2 a3 h3 a4 h4 hc0 hc1 x xs0 xs1 = k0_pay4 x xs1 := by
  unfold sout0_C_1
  rw [View.read_writes_eq_canon _ _ _ (scover0_C_1 c i a1 h1 a2 h2 a3 h3 a4 h4 hc0 hc1 x xs0 xs1)]
  unfold kernelRun0_C
  dsimp only
  sl_unfold_words
  rw [View.canon_unit_zero hz]
  simp only [View.readAt_eq_ld, h1.read_unread, h3.read_unread, h4.read_unread,
    View.ld_unit_zero (S := S4096x128) hz, View.ld_unit_zero (S := S1x128) hz]

/-- The output entry: computed from the two rows as this point leaves them. -/
theorem last_entry (c : Dev nD) (i : grid0.Coords) (a1 : Memref sig .tc .vmem S4096x128 .f32) (h1 : a1.IsWhole)
    (a2 : Memref sig .tc .vmem S1x1 .f32) (h2 : a2.IsWhole) (a3 : Memref sig .tc .vmem S1x128 .f32) (h3 : a3.IsWhole)
    (a4 : Memref sig .tc .vmem S1x128 .f32) (h4 : a4.IsWhole) (hc0 : ¬cond0_0 i) (hc1 : cond0_1 i) (x : Vec F S4096x128 .f32)
    (xs0 xs1 : Vec F S1x128 .f32) :
    out0_C_1 c i a1 h1 a2 h2 a3 h3 a4 h4 hc0 hc1 x xs0 xs1 = k0_pay5 (k0_pay4 x xs1) (k0_pay3 x xs0) (k0_pay3 x xs0) := by
  unfold out0_C_1
  rw [View.read_writes_eq_canon _ _ _ (cover0_C_1 c i a1 h1 a2 h2 a3 h3 a4 h4 hc0 hc1 x xs0 xs1)]
  unfold kernelRun0_C
  dsimp only
  sl_unfold_words
  rw [View.canon_unit_zero hz]
  simp only [View.readCov_unit_zero (S := S1x128) _ hz, View.readAt_eq_ld, h1.read_unread, h3.read_unread,
    h4.read_unread, View.ld_unit_zero (S := S4096x128) hz, View.ld_unit_zero (S := S1x128) hz]

end Cert.KernelIdeal.ColSums

end
-- ==== Proof.KernelValue.lean ====
/-
  What the kernel's run leaves in its result, as a function of the argument array.

  Across the four grid points the two running rows hold, after point n, the column sums (and the column sums of
  squares) of the row blocks 0..n, accumulated from zero in point order. The last point computes the one output
  entry from the rows it has just updated, and it alone is written back; the result array has that one entry, and
  the reshape after the call hands it on as the scalar result.
-/
import proofs.«103508_j17497696764047_1_alg».proof.Proof.KernelPieces
import Idealize.ShloMosaic.Lib.StableHlo.Run

noncomputable section

open Idealize.ShloMosaic Idealize.ShloMosaic.TcCoe Idealize.SL.Sem
open Idealize.ShloMosaic.Pipeline (Dat)

namespace Cert.KernelIdeal.ColSums

open Cert.KernelIdeal Cert.KernelIdeal.Gen

variable {F : FTy → Type} [FloatOps F]
variable (m : (ℓ : Loc nD τ sig) → Buf (Elt F) ℓ) (ρ : Dev nD → PrngReg)

/-! ## The running rows -/

/-- The block of 4096 rows the input window holds at point `t`. -/
abbrev tile (c : Dev nD) (t : Fin cfg0.N) : Vec F S4096x128 .f32 := iblk m c 0 t

/-- The two running rows after point `n`: from zero at the first point, each point adding its block's column sums. -/
def rows (c : Dev nD) : (n : ℕ) → n < cfg0.N → Vec F S1x128 .f32 × Vec F S1x128 .f32
  | 0, h => (k0_pay3 (tile m c ⟨0, h⟩) (k0_pay1 (F := F)), k0_pay4 (tile m c ⟨0, h⟩) (k0_pay2 (F := F)))
  | n + 1, h => (k0_pay3 (tile m c ⟨n + 1, h⟩) (rows c n (Nat.lt_of_succ_lt h)).1,
      k0_pay4 (tile m c ⟨n + 1, h⟩) (rows c n (Nat.lt_of_succ_lt h)).2)

/-- What the scratch rows hold after each point is the running rows: by induction on the point, the first point
    a reset and an update, every later one an update of what the point before left. -/
theorem outsAt_rows (c : Dev nD) : ∀ (n : ℕ) (h : n < cfg0.N), (outsAt0 m c n h).2 = rows m c n h
  | 0, h => by
    have e := outsAt0_A m c ⟨0, h⟩ rfl (by dsimp only; omega)
    rw [show outsAt0 m c 0 h = _ from e]
    dsimp only
    rw [first_sums, first_sqsums]
    rfl
  | n + 1, h => by
    have hN : cfg0.N = 4 := N_0
    have ih := outsAt_rows c n (Nat.lt_of_succ_lt h)
    have h0 : ¬(⟨n + 1, h⟩ : Fin cfg0.N).val % 4 = 0 := by dsimp only; omega
    by_cases h1 : (⟨n + 1, h⟩ : Fin cfg0.N).val % 4 = 3
    · have e := outsAt0_C m c ⟨n + 1, h⟩ h0 h1
      rw [show outsAt0 m c (n + 1) h = _ from e]
      dsimp only
      rw [last_sums, last_sqsums]
      show (k0_pay3 _ (outsAt0 m c n _).2.1, k0_pay4 _ (outsAt0 m c n _).2.2) = _
      rw [ih]
      rfl
    · have e := outsAt0_B m c ⟨n + 1, h⟩ h0 h1
      rw [show outsAt0 m c (n + 1) h = _ from e]
      dsimp only
      rw [next_sums, next_sqsums]
      show (k0_pay3 _ (outsAt0 m c n _).2.1, k0_pay4 _ (outsAt0 m c n _).2.2) = _
      rw [ih]
      rfl

/-! ## The output entry -/

theorem last_lt : 3 < cfg0.N := by rw [show cfg0.N = 4 from N_0]; decide

/-- The last point. -/
abbrev tLast : Fin cfg0.N := ⟨3, last_lt⟩

/-- The one output entry: computed at the last point from the rows that point leaves. -/
def entry (c : Dev nD) : Vec F S1x1 .f32 :=
  k0_pay5 (rows m c 3 last_lt).2 (rows m c 3 last_lt).1 (rows m c 3 last_lt).1

theorem out_entry (c : Dev nD) : (outsAt0 m c 3 last_lt).1 = entry m c := by
  have e := outsAt0_C m c tLast (by decide) (by decide)
  rw [show outsAt0 m c 3 last_lt = _ from e]
  dsimp only
  rw [last_entry]
  show k0_pay5 (k0_pay4 _ (outsAt0 m c 2 _).2.2) (k0_pay3 _ (outsAt0 m c 2 _).2.1) (k0_pay3 _ (outsAt0 m c 2 _).2.1) = _
  rw [outsAt_rows m c 2]
  rfl

/-! ## The result array -/

/-- The result array has one entry: any two of its indices are the same index. -/
theorem one_index (p q : S1x1.Idx) : p = q := funext fun a => Fin.ext (by
  have hs : S1x1.size a = 1 := by fin_cases a <;> rfl
  have hp : (p a).val < 1 := lt_of_lt_of_eq (p a).isLt hs
  have hq : (q a).val < 1 := lt_of_lt_of_eq (q a).isLt hs
  omega)

/-- The only write-back is the last point's, and it writes the output entry. -/
theorem written_back (c : Dev nD) (t : Fin cfg0.N) (hf : (cfg0.win 1).flush t = true) :
    (dats m 0 c).flushed 1 t = ((cfg0.win 1).blk t).view.read (Elt F) (entry m c) := by
  have hN : cfg0.N = 4 := N_0
  have ht : t.val = 3 := by have := (flush0_1 t).mp hf; have := t.isLt; omega
  obtain rfl : t = tLast := Fin.ext ht
  show (cfg0.win 1).cut (grid0.coords tLast) ((dats m 0 c).after 1 tLast) = _
  rw [after0_1]
  show (cfg0.win 1).cut (grid0.coords tLast) (outsAt0 m c 3 last_lt).1 = _
  rw [out_entry]
  funext y
  rw [View.read_apply]
  exact congrArg (entry m c) (one_index _ _)

/-- So the result array ends holding the output entry. -/
theorem final_entry (c : Dev nD) : (dats m 0 c).arrAt 1 cfg0.N = entry m c :=
  (dats m 0 c).arrAt_eq_of_cover 1 (entry m c) (written_back m c) fun i =>
    ⟨tLast, (flush0_1 tLast).mpr rfl, by
      show i ∈ ((View.whole main_v0).slice (win0_1.rect tLast)).set
      rw [View.set_slice_whole, Rect.mem_set_unit]
      have hoff : ∀ a : Fin 2, win0_1.index tLast a * win0_1.size a = 0 := by decide +kernel
      have hsz : ∀ a : Fin 2, win0_1.xsize (grid0.coords tLast) a = 1 := by decide +kernel
      intro a
      have hs : main_v0.ty.shape.size a = 1 := by fin_cases a <;> rfl
      have hi : (i a).val < 1 := lt_of_lt_of_eq (i a).isLt hs
      rw [hoff a, hsz a]
      omega⟩

/-! ## The scalar result -/

theorem tail_value (c : Dev nD) :
    Pipeline.afterTail₀ cfgs (dats m) 0 (V0 m) [hostOps1] c main_v1 = shapeCast S_ (entry m c) shapeCasts_S1x1_S_ := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.devRef .tc main_v0) = entry m c :=
    (Pipeline.withArrays_arr spec0 launch0.win.arr_inj c _ _ 1).trans (final_entry m c)
  funext i
  exact congrFun (congrArg (fun v => shapeCast S_ v shapeCasts_S1x1_S_) hw) i

/-- The run, read: the scalar result is the output entry handed on by the reshape, the argument is unchanged. -/
theorem run : θ_run defs (onTc (τ := τ) (main (F := F))) ⟨m, fun _ => 0, ρ⟩ fun r => ∀ c : Dev nD,
      r.2.mem ((c : Thread nD τ).loc main_v1) = shapeCast S_ (entry m c) shapeCasts_S1x1_S_
      ∧ r.2.mem ((c : Thread nD τ).loc main_arg0) = m ((c : Thread nD τ).loc main_arg0) :=
  (θ_run defs _ _).mono (fun _ h c =>
      ⟨((h c).2 main_v1 (Pipeline.mem_restRefs_of main_v1 rfl (by decide))).trans (tail_value m c),
        ((h c).1 0).trans (((dats m 0 c).arrAt_in 0 rfl _).trans ((A_eq m c 0).trans (V_main_arg0 m c)))⟩)
    (run_main m ρ)

end Cert.KernelIdeal.ColSums

end
-- ==== Proof.KernelRead.lean ====
/-
  The kernel's result read as extended reals: the column form.

  A block's column sum at column d is the sum over its 4096 rows; the running rows after the last point are the
  four blocks' column sums (and column sums of squares) added in order from zero; row r of block t is row
  4096 t + r of the argument; and the output entry is N times the sum of the sums of squares, less the sum of the
  squared column sums, divided by the count and then by D.
-/
import proofs.«103508_j17497696764047_1_alg».proof.Proof.KernelValue
import proofs.«103508_j17497696764047_1_alg».proof.Proof.PairAlgebra
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.ColSums

open Cert.KernelIdeal Cert.KernelIdeal.Gen Cert.PairAlgebra

/-! ## The body's arithmetic at an index -/

/-- A block's column sums, laid out as a row, at column `d`: the sum down the block's rows. -/
theorem colsum_at (src : FVec Ideal S4096x128 .f32) (hacc : (0x00000000#32 : BitVec 32) = 0x00000000#32)
    (u : Fin 1) (d : Fin 128) :
    shapeCast S1x128 (multiReduction (F := Ideal) .add [0] S128 src 0x00000000#32 reduces_S4096x128_S128 (.inl rfl) hacc)
        shapeCasts_S128_S1x128 (ix2 u d)
      = ∑ r : Fin 4096, src (ix2 r d) := by
  refine (shapeCast_a_1a_apply _ shapeCasts_S128_S1x128 u d).trans ?_
  refine (Ideal.multiReduction_add_single src 0x00000000#32 reduces_S4096x128_S128 (.inl rfl) hacc (ix1 d)).trans ?_
  exact Finset.sum_congr rfl fun r _ => congrArg src
    (funext fun a => Fin.ext (by match a with | ⟨0, _⟩ => rfl | ⟨1, _⟩ => rfl))

/-- A row's sum along its 128 columns, laid out as the one entry. -/
theorem rowsum_at (src : FVec Ideal S1x128 .f32) (hacc : (0x00000000#32 : BitVec 32) = 0x00000000#32)
    (j : S1x1.Idx) :
    shapeCast S1x1 (multiReduction (F := Ideal) .add [1] S1 src 0x00000000#32 reduces_S1x128_S1 (.inl rfl) hacc)
        shapeCasts_S1_S1x1 j
      = ∑ k : Fin 128, src (ix2 (0 : Fin 1) k) := by
  obtain ⟨p, q, rfl⟩ : ∃ (p : Fin 1) (q : Fin 1), j = ix2 p q := ⟨j 0, j 1, eq_ix2 j⟩
  refine (shapeCast_a_1a_apply _ shapeCasts_S1_S1x1 p q).trans ?_
  refine (Ideal.multiReduction_add_single src 0x00000000#32 reduces_S1x128_S1 (.inl rfl) hacc (ix1 q)).trans ?_
  exact Finset.sum_congr rfl fun k _ => congrArg src
    (funext fun a => Fin.ext (by
      match a with
      | ⟨0, _⟩ => show q.val = 0; omega
      | ⟨1, _⟩ => rfl))

/-- The zero row. -/
theorem zero_row_at (u : Fin 1) (d : Fin 128) : (k0_pay1 (F := Ideal)) (ix2 u d) = 0 := by
  unfold k0_pay1
  rw [shapeCast_self]
  exact Ideal.ofBits_zero_f32

theorem zero_row'_at (u : Fin 1) (d : Fin 128) : (k0_pay2 (F := Ideal)) (ix2 u d) = 0 := by
  unfold k0_pay2
  rw [shapeCast_self]
  exact Ideal.ofBits_zero_f32

/-- The update of the row of column sums: the row before plus the block's column sums. -/
theorem sums_update_at (blk : Vec Ideal S4096x128 .f32) (acc : Vec Ideal S1x128 .f32) (u : Fin 1) (d : Fin 128) :
    k0_pay3 (F := Ideal) blk acc (ix2 u d) = acc (ix2 u d) + ∑ r : Fin 4096, blk (ix2 r d) := by
  unfold k0_pay3
  show shapeCast S1x128 (addf acc (shapeCast S1x128 (multiReduction (F := Ideal) .add [0] S128 blk 0x00000000#32
    reduces_S4096x128_S128 (.inl rfl) rfl) shapeCasts_S128_S1x128)) shapeCasts_S1x128_S1x128 (ix2 u d) = _
  rw [shapeCast_self]
  exact congrArg (acc (ix2 u d) + ·) (colsum_at blk rfl u d)

/-- The update of the row of column sums of squares. -/
theorem sqsums_update_at (blk : Vec Ideal S4096x128 .f32) (acc : Vec Ideal S1x128 .f32) (u : Fin 1) (d : Fin 128) :
    k0_pay4 (F := Ideal) blk acc (ix2 u d) = acc (ix2 u d) + ∑ r : Fin 4096, blk (ix2 r d) * blk (ix2 r d) := by
  unfold k0_pay4
  show shapeCast S1x128 (addf acc (shapeCast S1x128 (multiReduction (F := Ideal) .add [0] S128 (mulf blk blk) 0x00000000#32
    reduces_S4096x128_S128 (.inl rfl) rfl) shapeCasts_S128_S1x128)) shapeCasts_S1x128_S1x128 (ix2 u d) = _
  rw [shapeCast_self]
  exact congrArg (acc (ix2 u d) + ·) (colsum_at (mulf blk blk) rfl u d)

/-- The output entry from the two rows: N times the sum of the sums of squares, less the sum of the products of the
    column sums, divided by the count and by D. -/
theorem entry_formula_at (sq s s' : Vec Ideal S1x128 .f32) (j : S1x1.Idx) :
    k0_pay5 (F := Ideal) sq s s' j
      = Ideal.div (Ideal.div
          (((16384 : ℝ) : EReal) * (∑ k : Fin 128, sq (ix2 (0 : Fin 1) k))
            - ∑ k : Fin 128, s (ix2 (0 : Fin 1) k) * s' (ix2 (0 : Fin 1) k))
          ((134209536 : ℝ) : EReal)) ((128 : ℝ) : EReal) := by
  unfold k0_pay5
  show Ideal.div (Ideal.div
      (Ideal.ofBits .f32 0x46800000#32
          * shapeCast S1x1 (multiReduction (F := Ideal) .add [1] S1 sq 0x00000000#32 reduces_S1x128_S1 (.inl rfl) rfl) shapeCasts_S1_S1x1 j
        - shapeCast S1x1 (multiReduction (F := Ideal) .add [1] S1 (mulf s s') 0x00000000#32 reduces_S1x128_S1 (.inl rfl) rfl) shapeCasts_S1_S1x1 j)
      (Ideal.ofBits .f32 0x4CFFFC00#32)) (Ideal.ofBits .f32 0x43000000#32) = _
  rw [rowsum_at sq rfl j, rowsum_at (mulf s s') rfl j, lit_n, lit_count, lit_d]
  rfl

/-! ## The rows after the last point, and the entry, as functions of the argument -/

variable (m : (ℓ : Loc nD τ sig) → Buf (Elt Ideal) ℓ)

/-- The argument array: 16384 points of 128 coordinates, as extended reals. -/
abbrev centers (c : Dev nD) : Vec Ideal S16384x128 .f32 := m ((c : Thread nD τ).loc main_arg0)

/-- The block the window holds at point `n`, at row `r` and column `d`, is the argument at row 4096 n + r. -/
theorem tile_at (c : Dev nD) (n : ℕ) (hn : n < cfg0.N) (r : Fin 4096) (d : Fin 128) :
    tile m c ⟨n, hn⟩ (ix2 r d)
      = centers m c (ix2 (row ⟨n, lt_of_lt_of_eq hn (show cfg0.N = 4 from N_0)⟩ r) d) := by
  have hi : ∀ s : Fin cfg0.N, win0_0.index s 0 = s.val ∧ win0_0.index s 1 = 0 :=
    (by decide +kernel : ∀ s : Fin grid0.N, win0_0.index s 0 = s.val ∧ win0_0.index s 1 = 0)
  show V m c main_arg0 (((cfg0.win 0).blk ⟨n, hn⟩).view.emb (ix2 r d)) = _
  rw [V_main_arg0]
  refine congrArg _ (funext fun a => Fin.ext ?_)
  match a with
  | ⟨0, _⟩ =>
    show win0_0.index ⟨n, hn⟩ 0 * 4096 + 1 * r.val = 4096 * n + r.val
    rw [(hi ⟨n, hn⟩).1]
    show n * 4096 + 1 * r.val = 4096 * n + r.val
    omega
  | ⟨1, _⟩ =>
    show win0_0.index ⟨n, hn⟩ 1 * 128 + 1 * d.val = d.val
    rw [(hi ⟨n, hn⟩).2]
    omega

/-- The row of column sums after the last point: the column's entries summed block after block from zero. -/
theorem sums_at (c : Dev nD) (u : Fin 1) (d : Fin 128) :
    (rows m c 3 last_lt).1 (ix2 u d) = acc4 (fun i => centers m c (ix2 i d)) := by
  simp only [rows]
  rw [sums_update_at, sums_update_at, sums_update_at, sums_update_at, zero_row_at]
  simp only [tile_at m c]
  rfl

/-- The row of column sums of squares after the last point. -/
theorem sqsums_at (c : Dev nD) (u : Fin 1) (d : Fin 128) :
    (rows m c 3 last_lt).2 (ix2 u d)
      = acc4 (fun i => centers m c (ix2 i d) * centers m c (ix2 i d)) := by
  simp only [rows]
  rw [sqsums_update_at, sqsums_update_at, sqsums_update_at, sqsums_update_at, zero_row'_at]
  simp only [tile_at m c]
  rfl

/-- The output entry is the column form of the argument's entries. -/
theorem entry_at (c : Dev nD) (j : S1x1.Idx) :
    entry m c j = colForm (fun i d => centers m c (ix2 i d)) := by
  unfold entry colForm
  rw [entry_formula_at]
  simp only [sums_at m c, sqsums_at m c]

/-- The scalar result, at its one index, is the output entry. -/
theorem scalar_at (c : Dev nD) (i : S_.Idx) :
    shapeCast S_ (entry m c) shapeCasts_S1x1_S_ i = colForm (fun i d => centers m c (ix2 i d)) := by
  have h1 : S1x1.numel = 1 := by decide
  have h0 : S_.numel = 1 := by decide
  refine (shapeCast_apply (entry m c) shapeCasts_S1x1_S_ i (ix2 (0 : Fin 1) (0 : Fin 1)) ?_).trans (entry_at m c _)
  have a := (S1x1.rowMajor (ix2 (0 : Fin 1) (0 : Fin 1))).isLt
  have b := (S_.rowMajor i).isLt
  omega

end Cert.KernelIdeal.ColSums

end
-- ==== Proof.FiniteEntries.lean ====
/-
  What the precondition says: every entry of the argument is a real number.

  The precondition is the conjunction, over all entries x, of |x| < +∞. On the extended reals |x| = max x (-x),
  which is +∞ at both infinities, so an entry that passes is neither of them.
-/
import proofs.«103508_j17497696764047_1_alg».proof.Pre_finite_inputs
import Idealize.ShloMosaic.Lib.ReduceAll
import Idealize.ShloMosaic.Lib.ValueIdx
import Idealize.ShloMosaic.PureOps.Ideal.Laws

noncomputable section

namespace Cert.Pre_finite_inputs.Entries

open Cert.Pre_finite_inputs Idealize.ShloMosaic

instance : Subsingleton S_.Idx := ⟨fun a b => funext fun d => d.elim0⟩

/-- The comparison's bound is +∞. -/
theorem lit_top : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the argument is a real number. -/
theorem entry_real [Facts] (x : FVec Ideal S16384x128 .f32) (h : fn (F := Ideal) x = fun _ => 1#1)
    (j : S16384x128.Idx) : ∃ r : ℝ, x j = (r : EReal) := by
  have e := congrFun h ValueIdx.ix0
  dsimp only [fn] at e
  have hj := Host.reduce_andi_all _ _ _ _ _ e j
  have hlt : Ideal.cmp .olt (max (x j) (-(x j))) (Ideal.ofBits .f32 0x7F800000#32) = 1#1 := hj
  rw [lit_top] at hlt
  refine real_of_abs_lt_top (x j) ?_
  by_contra hn
  simp [Ideal.cmp, hn] at hlt

end Cert.Pre_finite_inputs.Entries

end
-- ==== Proof.lean ====
/-
  The mean pairwise squared distance of 16384 points in 128 dimensions, two ways.

  The reference sums |c_i|² + |c_j|² - 2 c_i·c_j over all ordered pairs, halves it, and divides by count · D. The
  kernel makes one pass over the points in four blocks of 4096 rows, keeping the column sums and the column sums
  of squares, and at the end returns (N Σ_d Σ_i c_id² - Σ_d (Σ_i c_id)²) / count / D. Over the reals the two are
  equal, because Σ_{i,j} c_i·c_j = Σ_d (Σ_i c_id)²; the law distributes and cancels, so it needs every entry to be
  a real number, which is what the precondition says. Both results are then the coercion of one real number.

  The frames: the kernel's two are its generated frame; the reference has no kernel, and its frame is its run with
  the result dropped. The idealization rewrote nothing, so there is nothing to preserve.
-/
import proofs.«103508_j17497696764047_1_alg».proof.Defs
import proofs.«103508_j17497696764047_1_alg».proof.Proof.Gen.Kernel
import proofs.«103508_j17497696764047_1_alg».proof.Proof.Gen.Kernel.Skeleton
import proofs.«103508_j17497696764047_1_alg».proof.Proof.Gen.Kernel.Launch
import proofs.«103508_j17497696764047_1_alg».proof.Proof.Gen.Kernel.Points
import proofs.«103508_j17497696764047_1_alg».proof.Proof.Gen.Kernel.Frame
import proofs.«103508_j17497696764047_1_alg».proof.Proof.Gen.KernelIdeal
import proofs.«103508_j17497696764047_1_alg».proof.Proof.Gen.KernelIdeal.Skeleton
import proofs.«103508_j17497696764047_1_alg».proof.Proof.Gen.KernelIdeal.Launch
import proofs.«103508_j17497696764047_1_alg».proof.Proof.Gen.KernelIdeal.Points
import proofs.«103508_j17497696764047_1_alg».proof.Proof.Gen.KernelIdeal.Frame
import proofs.«103508_j17497696764047_1_alg».proof.Proof.Gen.ReferenceIdeal
import proofs.«103508_j17497696764047_1_alg».proof.Proof.Gen.ReferenceIdeal.Run
import proofs.«103508_j17497696764047_1_alg».proof.Proof.Gen.ReferenceIdeal.Read
import proofs.«103508_j17497696764047_1_alg».proof.Proof.Gen.Pre_finite_inputs
import proofs.«103508_j17497696764047_1_alg».proof.Proof.PairAlgebra
import proofs.«103508_j17497696764047_1_alg».proof.Proof.RefRead
import proofs.«103508_j17497696764047_1_alg».proof.Proof.KernelRead
import proofs.«103508_j17497696764047_1_alg».proof.Proof.FiniteEntries
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the points, the kernel's scalar is the column form and the reference's the pair
    form of the same entries; the entries are real numbers, so both are the one real number `meanPairSq`. -/
theorem algebraic : Cert.algebraic_KernelIdeal_ReferenceIdeal := by
  intro m ρ m' ρ' hpre hagree
  refine ⟨fun c => shapeCast Cert.KernelIdeal.S_ (Cert.KernelIdeal.ColSums.entry m c)
    Cert.KernelIdeal.Facts₀.shapeCasts_S1x1_S_, Cert.KernelIdeal.ColSums.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq (F := Ideal) _).trans ?_
  rw [hagree c]
  funext i
  rw [Cert.ReferenceIdeal.PairSum.result_eq]
  refine Eq.trans ?_ (Cert.KernelIdeal.ColSums.scalar_at m c i).symm
  choose a ha using fun j => Cert.Pre_finite_inputs.Entries.entry_real _ (hpre c) j
  have hx : (fun (p : Fin 16384) (d : Fin 128) => Cert.KernelIdeal.ColSums.centers m c (ix2 p d))
      = fun p d => ((a (ix2 p d) : ℝ) : EReal) := funext fun p => funext fun d => ha (ix2 p d)
  show Cert.PairAlgebra.pairForm (fun p d => Cert.KernelIdeal.ColSums.centers m c (ix2 p d))
    = Cert.PairAlgebra.colForm (fun p d => Cert.KernelIdeal.ColSums.centers m c (ix2 p d))
  rw [hx, Cert.PairAlgebra.pairForm_coe, Cert.PairAlgebra.colForm_coe]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
